-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000000 : Shape := ⟨1, ![10000000]⟩
abbrev S2x10000000 : Shape := ⟨2, ![2, 10000000]⟩
abbrev S500000 : Shape := ⟨1, ![500000]⟩
abbrev S1 : Shape := ⟨1, ![1]⟩
abbrev S_ : Shape := ⟨0, ![]⟩
abbrev S1x10000000 : Shape := ⟨2, ![1, 10000000]⟩

class Facts : Prop where
  bcast_S_S10000000 : S_.BroadcastsInDim S10000000 (![] : Fin 0 → Fin S10000000.rank)
  reducesTo_S10000000_S_d0 : S10000000.ReducesTo [0] S_
  h_S_ : 0 < S_.numel
  bcast_S_S500000 : S_.BroadcastsInDim S500000 (![] : Fin 0 → Fin S500000.rank)
  reducesTo_S500000_S_d0 : S500000.ReducesTo [0] S_
  bcast_S_S1 : S_.BroadcastsInDim S1 (![] : Fin 0 → Fin S1.rank)
  reducesTo_S1_S_d0 : S1.ReducesTo [0] S_
  slices_S2x10000000_S1x10000000_1_0 : S2x10000000.Slices ![1, 0] S1x10000000
  shapeCasts_S1x10000000_S10000000 : S1x10000000.ShapeCasts S10000000

variable [Facts]

def fn_part3 {F : FTy → Type} [FloatOps F] (main_arg1 : IVec S2x10000000 32) (main_v48 : IVec S_ 1) (main_v50 : IVec S1 1) : IVec S_ 1 :=
  let main_c_19 : IVec S_ 1 := constantI S_ 1 1#1
  let main_v51 : IVec S_ 1 := (fun x v => Host.reduce IntOp.andi x v reducesTo_S1_S_d0 h_S_) main_v50 main_c_19
  let main_v52 : IVec S_ 1 := andi main_v48 main_v51
  let main_v53 : IVec S1x10000000 32 := (extractStridedSlice S1x10000000 ![1, 0] · slices_S2x10000000_S1x10000000_1_0) main_arg1
  let main_v54 : IVec S10000000 32 := shapeCast S10000000 main_v53 shapeCasts_S1x10000000_S10000000
  let main_c_20 : IVec S_ 32 := constantI S_ 32 0#32
  let main_v55 : IVec S10000000 32 := broadcastInDim S10000000 ![] bcast_S_S10000000 main_c_20
  let main_v56 : IVec S10000000 1 := cmpi .sge main_v54 main_v55
  let main_c_21 : IVec S_ 1 := constantI S_ 1 1#1
  let main_v57 : IVec S_ 1 := (fun x v => Host.reduce IntOp.andi x v reducesTo_S10000000_S_d0 h_S_) main_v56 main_c_21
  let main_v58 : IVec S_ 1 := andi main_v52 main_v57
  let main_v59 : IVec S1x10000000 32 := (extractStridedSlice S1x10000000 ![1, 0] · slices_S2x10000000_S1x10000000_1_0) main_arg1
  let main_v60 : IVec S10000000 32 := shapeCast S10000000 main_v59 shapeCasts_S1x10000000_S10000000
  let main_c_22 : IVec S_ 32 := constantI S_ 32 500000#32
  let main_v61 : IVec S10000000 32 := broadcastInDim S10000000 ![] bcast_S_S10000000 main_c_22
  let main_v62 : IVec S10000000 1 := cmpi .slt main_v60 main_v61
  let main_c_23 : IVec S_ 1 := constantI S_ 1 1#1
  let main_v63 : IVec S_ 1 := (fun x v => Host.reduce IntOp.andi x v reducesTo_S10000000_S_d0 h_S_) main_v62 main_c_23
  let main_v64 : IVec S_ 1 := andi main_v58 main_v63
  main_v64

def fn_part2 {F : FTy → Type} [FloatOps F] (main_arg1 : IVec S2x10000000 32) (main_arg8 : FVec F S1 .f32) (main_arg9 : FVec F S1 .f32) (main_arg10 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_cst_18 : FVec F S_ .f32 := constant S_ .f32 0x00000000#32
  let main_v49 : FVec F S1 .f32 := broadcastInDim S1 ![] bcast_S_S1 main_cst_18
  let main_v50 : IVec S1 1 := cmpf .une main_arg8 main_v49
  fn_part3 (F := F) main_arg1 main_v48 main_v50

def fn_part1 {F : FTy → Type} [FloatOps F] (main_arg1 : IVec S2x10000000 32) (main_arg5 : FVec F S500000 .f32) (main_arg6 : FVec F S500000 .f32) (main_arg7 : FVec F S1 .f32) (main_arg8 : FVec F S1 .f32) (main_arg9 : FVec F S1 .f32) (main_arg10 : FVec F S1 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S500000 .f32 := Host.absf main_arg5
  let main_cst_6 : FVec F S_ .f32 := constant S_ .f32 0x7F800000#32
  let main_v20 : FVec F S500000 .f32 := broadcastInDim S500000 ![] bcast_S_S500000 main_cst_6
  let main_v21 : IVec S500000 1 := cmpf .olt main_v19 main_v20
  let main_c_7 : IVec S_ 1 := constantI S_ 1 1#1
  let main_v22 : IVec S_ 1 := (fun x v => Host.reduce IntOp.andi x v reducesTo_S500000_S_d0 h_S_) main_v21 main_c_7
  let main_v23 : IVec S_ 1 := andi main_v18 main_v22
  let main_v24 : FVec F S500000 .f32 := Host.absf main_arg6
  let main_cst_8 : FVec F S_ .f32 := constant S_ .f32 0x7F800000#32
  let main_v25 : FVec F S500000 .f32 := broadcastInDim S500000 ![] bcast_S_S500000 main_cst_8
  let main_v26 : IVec S500000 1 := cmpf .olt main_v24 main_v25
  let main_c_9 : IVec S_ 1 := constantI S_ 1 1#1
  let main_v27 : IVec S_ 1 := (fun x v => Host.reduce IntOp.andi x v reducesTo_S500000_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S10000000 .f32) (main_arg1 : IVec S2x10000000 32) (main_arg2 : FVec F S500000 .f32) (main_arg3 : FVec F S500000 .f32) (main_arg4 : FVec F S500000 .f32) (main_arg5 : FVec F S500000 .f32) (main_arg6 : FVec F S500000 .f32) (main_arg7 : FVec F S1 .f32) (main_arg8 : FVec F S1 .f32) (main_arg9 : FVec F S1 .f32) (main_arg10 : FVec F S1 .f32) : IVec S_ 1 :=
  let main_v0 : FVec F S10000000 .f32 := Host.absf main_arg0
  let main_cst : FVec F S_ .f32 := constant S_ .f32 0x7F800000#32
  let main_v1 : FVec F S10000000 .f32 := broadcastInDim S10000000 ![] bcast_S_S10000000 main_cst
  let main_v2 : IVec S10000000 1 := cmpf .olt main_v0 main_v1
  let main_c : IVec S_ 1 := constantI S_ 1 1#1
  let main_v3 : IVec S_ 1 := (fun x v => Host.reduce IntOp.andi x v reducesTo_S10000000_S_d0 h_S_) main_v2 main_c
  let main_v4 : FVec F S500000 .f32 := Host.absf main_arg2
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000 .f32 := Host.absf main_arg3
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S500000 .f32 := Host.absf main_arg4
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg1 main_arg5 main_arg6 main_arg7 main_arg8 main_arg9 main_arg10 main_v13 main_v16
-- ==== Kernel.lean ====
abbrev S10000000 : Shape := ⟨1, ![10000000]⟩
abbrev S2x10000000 : Shape := ⟨2, ![2, 10000000]⟩
abbrev S500000 : Shape := ⟨1, ![500000]⟩
abbrev S1 : Shape := ⟨1, ![1]⟩
abbrev S1x10000000 : Shape := ⟨2, ![1, 10000000]⟩
abbrev S_ : Shape := ⟨0, ![]⟩
abbrev S512000 : Shape := ⟨1, ![512000]⟩
abbrev S51200 : Shape := ⟨1, ![51200]⟩
abbrev S10000000x1 : Shape := ⟨2, ![10000000, 1]⟩

abbrev nBuf : Space → Nat
  | .hbm => 42
  | .vmem => 17
  | .smem => 0
  | _ => 0

abbrev bufTy : (tb : Table) → Fin (tcTables nBuf tb) → BufTy
  | .hbm, ⟨0, _⟩ => ⟨S10000000, .f32⟩
  | .hbm, ⟨1, _⟩ => ⟨S2x10000000, .i32⟩
  | .hbm, ⟨2, _⟩ => ⟨S500000, .f32⟩
  | .hbm, ⟨3, _⟩ => ⟨S500000, .f32⟩
  | .hbm, ⟨4, _⟩ => ⟨S500000, .f32⟩
  | .hbm, ⟨5, _⟩ => ⟨S500000, .f32⟩
  | .hbm, ⟨6, _⟩ => ⟨S500000, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S1x10000000, .i32⟩
  | .hbm, ⟨12, _⟩ => ⟨S10000000, .i32⟩
  | .hbm, ⟨13, _⟩ => ⟨S1x10000000, .i32⟩
  | .hbm, ⟨14, _⟩ => ⟨S10000000, .i32⟩
  | .hbm, ⟨15, _⟩ => ⟨S1, .f32⟩
  | .hbm, ⟨16, _⟩ => ⟨S_, .i32⟩
  | .hbm, ⟨17, _⟩ => ⟨S_, .f32⟩
  | .hbm, ⟨18, _⟩ => ⟨S512000, .f32⟩
  | .hbm, ⟨19, _⟩ => ⟨S_, .i32⟩
  | .hbm, ⟨20, _⟩ => ⟨S_, .f32⟩
  | .hbm, ⟨21, _⟩ => ⟨S512000, .f32⟩
  | .hbm, ⟨22, _⟩ => ⟨S_, .i32⟩
  | .hbm, ⟨23, _⟩ => ⟨S_, .f32⟩
  | .hbm, ⟨24, _⟩ => ⟨S512000, .f32⟩
  | .hbm, ⟨25, _⟩ => ⟨S_, .i32⟩
  | .hbm, ⟨26, _⟩ => ⟨S_, .f32⟩
  | .hbm, ⟨27, _⟩ => ⟨S512000, .f32⟩
  | .hbm, ⟨28, _⟩ => ⟨S_, .i32⟩
  | .hbm, ⟨29, _⟩ => ⟨S_, .f32⟩
  | .hbm, ⟨30, _⟩ => ⟨S512000, .f32⟩
  | .hbm, ⟨31, _⟩ => ⟨S512000, .f32⟩
  | .hbm, ⟨32, _⟩ => ⟨S512000, .f32⟩
  | .hbm, ⟨33, _⟩ => ⟨S10000000x1, .i32⟩
  | .hbm, ⟨34, _⟩ => ⟨S10000000, .f32⟩
  | .hbm, ⟨35, _⟩ => ⟨S10000000, .f32⟩
  | .hbm, ⟨36, _⟩ => ⟨S_, .f32⟩
  | .hbm, ⟨37, _⟩ => ⟨S500000, .f32⟩
  | .hbm, ⟨38, _⟩ => ⟨S10000000x1, .i32⟩
  | .hbm, ⟨39, _⟩ => ⟨S500000, .f32⟩
  | .hbm, ⟨40, _⟩ => ⟨S500000, .f32⟩
  | .hbm, ⟨41, _⟩ => ⟨S500000, .f32⟩
  | .local _ .vmem, ⟨0, _⟩ => ⟨S51200, .f32⟩
  | .local _ .vmem, ⟨1, _⟩ => ⟨S51200, .f32⟩
  | .local _ .vmem, ⟨2, _⟩ => ⟨S51200, .f32⟩
  | .local _ .vmem, ⟨3, _⟩ => ⟨S51200, .f32⟩
  | .local _ .vmem, ⟨4, _⟩ => ⟨S51200, .f32⟩
  | .local _ .vmem, ⟨5, _⟩ => ⟨S51200, .f32⟩
  | .local _ .vmem, ⟨6, _⟩ => ⟨S51200, .f32⟩
  | .local _ .vmem, ⟨7, _⟩ => ⟨S51200, .f32⟩
  | .local _ .vmem, ⟨8, _⟩ => ⟨S51200, .f32⟩
  | .local _ .vmem, ⟨9, _⟩ => ⟨S51200, .f32⟩
  | .local _ .vmem, ⟨10, _⟩ => ⟨S1, .f32⟩
  | .local _ .vmem, ⟨11, _⟩ => ⟨S1, .f32⟩
  | .local _ .vmem, ⟨12, _⟩ => ⟨S1, .f32⟩
  | .local _ .vmem, ⟨13, _⟩ => ⟨S51200, .f32⟩
  | .local _ .vmem, ⟨14, _⟩ => ⟨S51200, .f32⟩
  | .local _ .vmem, ⟨15, _⟩ => ⟨S51200, .f32⟩
  | .local _ .vmem, ⟨16, _⟩ => ⟨S51200, .f32⟩
  | _, _ => ⟨S10000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_call0_v0 : Ref sig .tc := ⟨.hbm, 17, rfl⟩
abbrev main_v5 : Ref sig .tc := ⟨.hbm, 18, rfl⟩
abbrev main_c_0 : Ref sig .tc := ⟨.hbm, 19, rfl⟩
abbrev main_call1_v0 : Ref sig .tc := ⟨.hbm, 20, rfl⟩
abbrev main_v6 : Ref sig .tc := ⟨.hbm, 21, rfl⟩
abbrev main_c_1 : Ref sig .tc := ⟨.hbm, 22, rfl⟩
abbrev main_call2_v0 : Ref sig .tc := ⟨.hbm, 23, rfl⟩
abbrev main_v7 : Ref sig .tc := ⟨.hbm, 24, rfl⟩
abbrev main_c_2 : Ref sig .tc := ⟨.hbm, 25, rfl⟩
abbrev main_call3_v0 : Ref sig .tc := ⟨.hbm, 26, rfl⟩
abbrev main_v8 : Ref sig .tc := ⟨.hbm, 27, rfl⟩
abbrev main_c_3 : Ref sig .tc := ⟨.hbm, 28, rfl⟩
abbrev main_call4_v0 : Ref sig .tc := ⟨.hbm, 29, rfl⟩
abbrev main_v9 : Ref sig .tc := ⟨.hbm, 30, rfl⟩
abbrev main_v10_0 : Ref sig .tc := ⟨.hbm, 31, rfl⟩
abbrev main_v10_1 : Ref sig .tc := ⟨.hbm, 32, rfl⟩
abbrev main_call5_v0 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S51200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S51200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S51200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S51200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S51200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S51200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S51200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x10000000_S1x10000000_0_0 : S2x10000000.Slices ![0, 0] S1x10000000
  shapeCasts_S1x10000000_S10000000 : S1x10000000.ShapeCasts S10000000
  slices_S2x10000000_S1x10000000_1_0 : S2x10000000.Slices ![1, 0] S1x10000000
  pads_S500000_S512000_0120000 : S500000.Pads (![0] : Fin 1 → Nat) ![12000] ![0] S512000
  h_S_ : 0 < S_.numel
  inb_S51200_S51200_0 : ∀ a, (![0] : Fin 1 → Nat) a + S51200.size a ≤ S51200.size a
  h_S51200 : 0 < S51200.numel
  shapeCasts_S51200_S51200 : S51200.ShapeCasts S51200
  inb_S1_S1_0 : ∀ a, (![0] : Fin 1 → Nat) a + S1.size a ≤ S1.size a
  h_S1 : 0 < S1.numel
  shapeCasts_S1_S1 : S1.ShapeCasts S1
  broadcasts_S1_S51200 : S1.Broadcasts S51200
  bcast_S10000000_S10000000x1_0 : S10000000.BroadcastsInDim S10000000x1 (![0] : Fin 1 → Fin S10000000x1.rank)
  bcast_S_S500000 : S_.BroadcastsInDim S500000 (![] : Fin 0 → Fin S500000.rank)
  slices_S512000_S500000_0 : S512000.Slices ![0] S500000
  gather_S512000_S10000000x1_S10000000_n_0_n_n_0_1_1_wf : GatherDims.WF S512000 S10000000x1 S10000000 [] [0] [] [0] [] 1 ![1]
  scatter_S500000_S10000000x1_S10000000_n_0_0_1_wf : ScatterDims.WF S500000 S10000000x1 S10000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S51200.size a ≤ S512000.size a
  hwx0_0 : ∀ i : grid0.Coords, EltTy.bits .f32 = 32 ∨ (Rect.block (s := S512000) S51200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S51200.size a ≤ S512000.size a
  hwx0_1 : ∀ i : grid0.Coords, EltTy.bits .f32 = 32 ∨ (Rect.block (s := S512000) S51200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S51200.size a ≤ S512000.size a
  hwx0_2 : ∀ i : grid0.Coords, EltTy.bits .f32 = 32 ∨ (Rect.block (s := S512000) S51200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S51200.size a ≤ S512000.size a
  hwx0_3 : ∀ i : grid0.Coords, EltTy.bits .f32 = 32 ∨ (Rect.block (s := S512000) S51200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S51200.size a ≤ S512000.size a
  hwx0_4 : ∀ i : grid0.Coords, EltTy.bits .f32 = 32 ∨ (Rect.block (s := S512000) S51200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S51200.size a ≤ S512000.size a
  hwx0_8 : ∀ i : grid0.Coords, EltTy.bits .f32 = 32 ∨ (Rect.block (s := S512000) S51200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S51200.size a ≤ S512000.size a
  hwx0_9 : ∀ i : grid0.Coords, EltTy.bits .f32 = 32 ∨ (Rect.block (s := S512000) S51200.size (cc0_transform_9 i) (hinb0_9 i)).WholeWords (EltTy.packing .f32)

variable [Facts₀]

def gather_S512000_S10000000x1_S10000000_n_0_n_n_0_1_1 : GatherDims S512000 S10000000x1 S10000000 where
  offsetDims := []
  collapsedSliceDims := [0]
  operandBatchingDims := []
  startIndicesBatchingDims := []
  startIndexMap := [0]
  indexVectorDim := 1
  sliceSizes := ![1]
  wf := gather_S512000_S10000000x1_S10000000_n_0_n_n_0_1_1_wf
def scatter_S500000_S10000000x1_S10000000_n_0_0_1 : ScatterDims S500000 S10000000x1 S10000000 where
  updateWindowDims := []
  insertedWindowDims := [0]
  scatterDimsToOperandDims := [0]
  indexVectorDim := 1
  wf := scatter_S500000_S10000000x1_S10000000_n_0_0_1_wf

abbrev win0_0 : Pipeline.Window sig grid0 :=
  Pipeline.Window.ofSpec (Memref.whole main_v5) S51200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S51200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S51200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S51200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S51200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10_0) S51200.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_1) S51200.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000000 : Shape := ⟨1, ![10000000]⟩
abbrev S2x10000000 : Shape := ⟨2, ![2, 10000000]⟩
abbrev S500000 : Shape := ⟨1, ![500000]⟩
abbrev S1 : Shape := ⟨1, ![1]⟩
abbrev S_ : Shape := ⟨0, ![]⟩
abbrev S1x10000000 : Shape := ⟨2, ![1, 10000000]⟩
abbrev S10000000x1 : Shape := ⟨2, ![10000000, 1]⟩

abbrev nBuf : Space → Nat
  | .hbm => 57
  | .vmem => 0
  | .smem => 0
  | _ => 0

abbrev bufTy : (tb : Table) → Fin (tcTables nBuf tb) → BufTy
  | .hbm, ⟨0, _⟩ => ⟨S10000000, .f32⟩
  | .hbm, ⟨1, _⟩ => ⟨S2x10000000, .i32⟩
  | .hbm, ⟨2, _⟩ => ⟨S500000, .f32⟩
  | .hbm, ⟨3, _⟩ => ⟨S500000, .f32⟩
  | .hbm, ⟨4, _⟩ => ⟨S500000, .f32⟩
  | .hbm, ⟨5, _⟩ => ⟨S500000, .f32⟩
  | .hbm, ⟨6, _⟩ => ⟨S500000, .f32⟩
  | .hbm, ⟨7, _⟩ => ⟨S1, .f32⟩
  | .hbm, ⟨8, _⟩ => ⟨S1, .f32⟩
  | .hbm, ⟨9, _⟩ => ⟨S1, .f32⟩
  | .hbm, ⟨10, _⟩ => ⟨S1, .f32⟩
  | .hbm, ⟨11, _⟩ => ⟨S500000, .f32⟩
  | .hbm, ⟨12, _⟩ => ⟨S500000, .f32⟩
  | .hbm, ⟨13, _⟩ => ⟨S500000, .f32⟩
  | .hbm, ⟨14, _⟩ => ⟨S500000, .f32⟩
  | .hbm, ⟨15, _⟩ => ⟨S500000, .f32⟩
  | .hbm, ⟨16, _⟩ => ⟨S500000, .f32⟩
  | .hbm, ⟨17, _⟩ => ⟨S500000, .f32⟩
  | .hbm, ⟨18, _⟩ => ⟨S500000, .f32⟩
  | .hbm, ⟨19, _⟩ => ⟨S500000, .f32⟩
  | .hbm, ⟨20, _⟩ => ⟨S500000, .f32⟩
  | .hbm, ⟨21, _⟩ => ⟨S500000, .f32⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S500000, .f32⟩
  | .hbm, ⟨28, _⟩ => ⟨S500000, .f32⟩
  | .hbm, ⟨29, _⟩ => ⟨S500000, .f32⟩
  | .hbm, ⟨30, _⟩ => ⟨S_, .f32⟩
  | .hbm, ⟨31, _⟩ => ⟨S500000, .f32⟩
  | .hbm, ⟨32, _⟩ => ⟨S500000, .f32⟩
  | .hbm, ⟨33, _⟩ => ⟨S500000, .f32⟩
  | .hbm, ⟨34, _⟩ => ⟨S_, .f32⟩
  | .hbm, ⟨35, _⟩ => ⟨S500000, .f32⟩
  | .hbm, ⟨36, _⟩ => ⟨S500000, .f32⟩
  | .hbm, ⟨37, _⟩ => ⟨S500000, .f32⟩
  | .hbm, ⟨38, _⟩ => ⟨S1x10000000, .i32⟩
  | .hbm, ⟨39, _⟩ => ⟨S10000000, .i32⟩
  | .hbm, ⟨40, _⟩ => ⟨S1x10000000, .i32⟩
  | .hbm, ⟨41, _⟩ => ⟨S10000000, .i32⟩
  | .hbm, ⟨42, _⟩ => ⟨S_, .i32⟩
  | .hbm, ⟨43, _⟩ => ⟨S10000000, .i32⟩
  | .hbm, ⟨44, _⟩ => ⟨S10000000, .i1⟩
  | .hbm, ⟨45, _⟩ => ⟨S_, .i32⟩
  | .hbm, ⟨46, _⟩ => ⟨S10000000, .i32⟩
  | .hbm, ⟨47, _⟩ => ⟨S10000000, .i32⟩
  | .hbm, ⟨48, _⟩ => ⟨S10000000, .i32⟩
  | .hbm, ⟨49, _⟩ => ⟨S10000000x1, .i32⟩
  | .hbm, ⟨50, _⟩ => ⟨S10000000, .f32⟩
  | .hbm, ⟨51, _⟩ => ⟨S10000000, .f32⟩
  | .hbm, ⟨52, _⟩ => ⟨S_, .f32⟩
  | .hbm, ⟨53, _⟩ => ⟨S500000, .f32⟩
  | .hbm, ⟨54, _⟩ => ⟨S10000000x1, .i32⟩
  | .hbm, ⟨55, _⟩ => ⟨S500000, .f32⟩
  | .hbm, ⟨56, _⟩ => ⟨S500000, .f32⟩
  | _, _ => ⟨S10000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_v27 : Ref sig .tc := ⟨.hbm, 43, rfl⟩
abbrev main_v28 : Ref sig .tc := ⟨.hbm, 44, rfl⟩
abbrev main_c_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]

class Facts₀ : Prop where
  bcast_S1_S500000_0 : S1.BroadcastsInDim S500000 (![0] : Fin 1 → Fin S500000.rank)
  bcast_S_S500000 : S_.BroadcastsInDim S500000 (![] : Fin 0 → Fin S500000.rank)
  slices_S2x10000000_S1x10000000_0_0 : S2x10000000.Slices ![0, 0] S1x10000000
  shapeCasts_S1x10000000_S10000000 : S1x10000000.ShapeCasts S10000000
  slices_S2x10000000_S1x10000000_1_0 : S2x10000000.Slices ![1, 0] S1x10000000
  bcast_S_S10000000 : S_.BroadcastsInDim S10000000 (![] : Fin 0 → Fin S10000000.rank)
  bcast_S10000000_S10000000x1_0 : S10000000.BroadcastsInDim S10000000x1 (![0] : Fin 1 → Fin S10000000x1.rank)
  gather_S500000_S10000000x1_S10000000_n_0_n_n_0_1_1_wf : GatherDims.WF S500000 S10000000x1 S10000000 [] [0] [] [0] [] 1 ![1]
  scatter_S500000_S10000000x1_S10000000_n_0_0_1_wf : ScatterDims.WF S500000 S10000000x1 S10000000 [] [0] [0] 1

variable [Facts₀]

def gather_S500000_S10000000x1_S10000000_n_0_n_n_0_1_1 : GatherDims S500000 S10000000x1 S10000000 where
  offsetDims := []
  collapsedSliceDims := [0]
  operandBatchingDims := []
  startIndicesBatchingDims := []
  startIndexMap := [0]
  indexVectorDim := 1
  sliceSizes := ![1]
  wf := gather_S500000_S10000000x1_S10000000_n_0_n_n_0_1_1_wf
def scatter_S500000_S10000000x1_S10000000_n_0_0_1 : ScatterDims S500000 S10000000x1 S10000000 where
  updateWindowDims := []
  insertedWindowDims := [0]
  scatterDimsToOperandDims := [0]
  indexVectorDim := 1
  wf := scatter_S500000_S10000000x1_S10000000_n_0_0_1_wf

class Facts : Prop extends Facts₀ where

variable [Facts]
-- ==== Proof.NeuronStep.lean ====
/-
  The neuron update as functions of extended reals, one neuron at a time.

  `traceStep spike s r`: one Euler step of the dual-exponential synaptic trace. The fast variable moves to
  `s' = s + a·(−s + spike/2)`, the slow one to `r − b·r + h·s'`, with `a`, `b`, `h` the binary values of the
  f32 words for 0.01, 0.05, 0.1 (the same words on both sides, never evaluated).

  `relaxed iback noise dt`: the background current relaxed toward the noise, `iback + dt·(noise − iback)`.

  `drive x c sig mu`: the effective current `(x / c)·sig + mu`. For `c ≠ 0` the quotient is the product with the
  inverse, so scaling by the precomputed ratio `sig / c` is the same number: `x·(sig·c⁻¹) = (x·c⁻¹)·sig` by
  commutativity and associativity of the product alone, which hold on all of the extended reals (no finiteness is used).
  At `c = 0` the two differ (`0·(1/0) = 0` against `(0/0)·1 = ⊥`), which is why the divisor is assumed nonzero.
-/
import Idealize.ShloMosaic.PureOps.Ideal
import Idealize.ShloMosaic.PureOps.Ideal.Laws

noncomputable section

namespace Cert.NeuronStep

open Idealize.ShloMosaic

/-- One step of the synaptic trace: the slow variable after the fast one has moved. -/
def traceStep (spike s r : EReal) : EReal :=
  (r - Ideal.ofBits .f32 0x3D4CCCCD#32 * r)
    + Ideal.ofBits .f32 0x3DCCCCCD#32
      * (s + Ideal.ofBits .f32 0x3C23D70A#32 * (-s + Ideal.div spike (Ideal.ofBits .f32 0x40000000#32)))

/-- The background current relaxed toward the noise. -/
def relaxed (iback noise dt : EReal) : EReal := iback + dt * (noise - iback)

/-- The effective current: divided by `c`, scaled by `sig`, shifted by `mu`. -/
def drive (x c sig mu : EReal) : EReal := Ideal.div x c * sig + mu

/-- Scaling by the ratio `sig / c` is dividing by `c` and scaling by `sig`, off `c = 0`. -/
theorem mul_ratio {c : EReal} (hc : c ≠ 0) (x sig : EReal) : x * Ideal.div sig c = Ideal.div x c * sig := by
  unfold Ideal.div
  rw [if_neg hc, if_neg hc, mul_comm sig, ← mul_assoc]

/-- The effective current from the precomputed ratio. -/
theorem scaled_eq_drive {c : EReal} (hc : c ≠ 0) (x sig mu : EReal) : x * Ideal.div sig c + mu = drive x c sig mu := by
  unfold drive; rw [mul_ratio hc]

/-- Subtracting from the zero word's value is negating. -/
theorem zero_word_sub (s : EReal) : Ideal.ofBits .f32 0x00000000#32 - s = -s := by
  rw [Ideal.ofBits_zero_f32, zero_sub]

end Cert.NeuronStep

end
-- ==== Proof.KernelPayload.lean ====
/-
  What the kernel body computes, one entry at a time, on the extended reals.

  The body loads five blocks of 51200 neurons (background current, noise, spike, fast trace, slow trace) and three
  one-entry vectors (the relaxation rate, the precomputed scale, the shift), and stores two blocks. Every operation is
  pointwise, the one-entry vectors being broadcast along the block, so entry `j` of each stored block depends on entry
  `j` of the loaded blocks only:
    the trace block's entry is `traceStep` of the spike, fast and slow entries (the kernel writes the negation of the
    fast trace as `0 − s`, which is `−s`);
    the current block's entry is the relaxed background current times the scale plus the shift.
-/
import proofs.«405485_j28930899706245_3_alg».proof.Proof.Gen.KernelIdeal.Skeleton
import proofs.«405485_j28930899706245_3_alg».proof.Proof.NeuronStep
import Idealize.ShloMosaic.Lib.Pipeline.Value
import Idealize.ShloMosaic.Lib.ValueIdx

noncomputable section

namespace Cert.KernelIdeal.Payload

open Idealize.ShloMosaic Idealize.ShloMosaic.ValueIdx Idealize.ShloMosaic.Pipeline
open Cert.KernelIdeal Cert.KernelIdeal.Gen Cert.NeuronStep

/-- A one-entry vector broadcast along the block reads its one entry everywhere. -/
theorem splat_apply {α : Type} (v : S1.Idx → α) (j : S51200.Idx) :
    broadcastTo S51200 v Facts₀.broadcasts_S1_S51200 j = v (ix1 (0 : Fin 1)) :=
  broadcastTo_apply v Facts₀.broadcasts_S1_S51200 j (ix1 (0 : Fin 1)) (fun a => match a with
    | ⟨0, _⟩ => by show 0 = if (1 : Nat) = 1 then 0 else _; rw [if_pos rfl])

/-- Entry `j` of the stored trace block. -/
theorem trace_entry (spike s r : Vec Ideal S51200 .f32) (j : S51200.Idx) :
    k0_pay2 (F := Ideal) spike s r j = traceStep (spike j) (s j) (r j) := by
  unfold k0_pay2
  simp only [shapeCast_self]
  unfold traceStep
  rw [← zero_word_sub]
  rfl

/-- Entry `j` of the stored current block. -/
theorem current_entry (iback noise : Vec Ideal S51200 .f32) (dt scale mu : Vec Ideal S1 .f32) (j : S51200.Idx) :
    k0_pay1 (F := Ideal) iback noise dt scale mu j
      = relaxed (iback j) (noise j) (dt (ix1 (0 : Fin 1))) * scale (ix1 (0 : Fin 1)) + mu (ix1 (0 : Fin 1)) := by
  unfold k0_pay1
  simp only [shapeCast_self]
  show (iback j + broadcastTo S51200 dt Facts₀.broadcasts_S1_S51200 j * (noise j - iback j))
      * broadcastTo S51200 scale Facts₀.broadcasts_S1_S51200 j + broadcastTo S51200 mu Facts₀.broadcasts_S1_S51200 j = _
  rw [splat_apply, splat_apply, splat_apply]
  rfl

end Cert.KernelIdeal.Payload

end
-- ==== Proof.KernelBlocks.lean ====
/-
  From blocks to arrays. The grid has ten points; at point `t` every 51200-entry window — the five inputs and the
  two outputs alike — is on block `t` of its 512000-entry array, and the three one-entry windows are on their one
  entry. Entry `y` of block `t` is entry `51200·t + y` of the array, so what point `t` writes back is the restriction
  to block `t` of ONE function of the whole input arrays:
    `traceArr spike s r`, entry by entry `traceStep`, for the trace output;
    `currentArr iback noise dt scale mu`, entry by entry the relaxed current times the scale plus the shift, for the
    current output.
  The ten blocks tile the array (entry `i` is in block `i / 51200`), so after the run each output array IS that function
  of the arrays the region found.
-/
import proofs.«405485_j28930899706245_3_alg».proof.Proof.Gen.KernelIdeal.Frame
import proofs.«405485_j28930899706245_3_alg».proof.Proof.KernelPayload
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Payload Cert.NeuronStep

variable (m : (ℓ : Loc nD τ sig) → Buf (Elt Ideal) ℓ)

/-- The trace output as a function of the whole spike, fast-trace and slow-trace arrays. -/
def traceArr (spike s r : S512000.Idx → Elt Ideal .f32) : S512000.Idx → Elt Ideal .f32 :=
  fun i => traceStep (spike i) (s i) (r i)

/-- The current output as a function of the whole background-current and noise arrays and the three scalars. -/
def currentArr (iback noise : S512000.Idx → Elt Ideal .f32) (dt scale mu : S1.Idx → Elt Ideal .f32) :
    S512000.Idx → Elt Ideal .f32 :=
  fun i => relaxed (iback i) (noise i) (dt (ix1 (0 : Fin 1))) * scale (ix1 (0 : Fin 1)) + mu (ix1 (0 : Fin 1))

theorem origin1 : (![0] : Fin 1 → Nat) = fun _ => 0 := funext fun a => by fin_cases a <;> rfl

/-- At point `t` the long windows are all on block `t`, the one-entry windows on block `0`. -/
theorem block_of_point : ∀ t : Fin cfg0.N,
    win0_0.index t (0 : Fin 1) = t.val ∧ win0_1.index t (0 : Fin 1) = t.val ∧ win0_2.index t (0 : Fin 1) = t.val
    ∧ win0_3.index t (0 : Fin 1) = t.val ∧ win0_4.index t (0 : Fin 1) = t.val
    ∧ win0_5.index t (0 : Fin 1) = 0 ∧ win0_6.index t (0 : Fin 1) = 0 ∧ win0_7.index t (0 : Fin 1) = 0
    ∧ win0_8.index t (0 : Fin 1) = t.val ∧ win0_9.index t (0 : Fin 1) = t.val :=
  (by decide +kernel : ∀ t : Fin grid0.N, _)

/-! ## The trace output (window 8) -/

/-- What point `t` writes back to the trace array is block `t` of `traceArr` of the arrays the region found. -/
theorem trace_flushed (c : Dev nD) (t : Fin cfg0.N) :
    (dats m 0 c).flushed 8 t
      = ((cfg0.win 8).blk t).view.read (Elt Ideal) (traceArr (V m c main_v7) (V m c main_v8) (V m c main_v9)) := by
  show (cfg0.win 8).cut (grid0.coords t) ((dats m 0 c).after 8 t) = _
  rw [after0_8]
  unfold out0_8
  rw [View.canon_unit_zero origin1]
  simp only [View.ld_unit_zero (S := S51200) origin1]
  obtain ⟨e0, e1, e2, e3, e4, e5, e6, e7, e8, e9⟩ := block_of_point t
  funext j
  refine (trace_entry (iblk m c 2 t) (iblk m c 3 t) (iblk m c 4 t) j).trans ?_
  have h2 : ((cfg0.win 2).blk t).view.emb j = ((cfg0.win 8).blk t).view.emb j := by
    funext a; apply Fin.ext
    match a with
    | ⟨0, _⟩ => show win0_2.index t (0 : Fin 1) * 51200 + 1 * (j 0).val = win0_8.index t (0 : Fin 1) * 51200 + 1 * (j 0).val; omega
  have h3 : ((cfg0.win 3).blk t).view.emb j = ((cfg0.win 8).blk t).view.emb j := by
    funext a; apply Fin.ext
    match a with
    | ⟨0, _⟩ => show win0_3.index t (0 : Fin 1) * 51200 + 1 * (j 0).val = win0_8.index t (0 : Fin 1) * 51200 + 1 * (j 0).val; omega
  have h4 : ((cfg0.win 4).blk t).view.emb j = ((cfg0.win 8).blk t).view.emb j := by
    funext a; apply Fin.ext
    match a with
    | ⟨0, _⟩ => show win0_4.index t (0 : Fin 1) * 51200 + 1 * (j 0).val = win0_8.index t (0 : Fin 1) * 51200 + 1 * (j 0).val; omega
  show traceStep (V m c main_v7 (((cfg0.win 2).blk t).view.emb j)) (V m c main_v8 (((cfg0.win 3).blk t).view.emb j))
      (V m c main_v9 (((cfg0.win 4).blk t).view.emb j))
    = traceStep (V m c main_v7 (((cfg0.win 8).blk t).view.emb j)) (V m c main_v8 (((cfg0.win 8).blk t).view.emb j))
      (V m c main_v9 (((cfg0.win 8).blk t).view.emb j))
  rw [h2, h3, h4]

/-- An entry is in point `t`'s block of the trace array iff it lies in the block's range. -/
theorem trace_mem_block (t : Fin cfg0.N) (i : S512000.Idx) :
    i ∈ ((cfg0.win 8).blk t).view.set ↔ ∀ a : Fin 1, win0_8.index t a * S51200.size a ≤ (i a).val
      ∧ (i a).val < win0_8.index t a * S51200.size a + S51200.size a := by
  show i ∈ ((View.whole main_v10_0).slice (win0_8.rect t)).set ↔ _
  rw [View.set_slice_whole, Rect.mem_set_unit]
  exact Iff.rfl

/-- Every entry of the trace array is in the block of point `i / 51200`. -/
theorem trace_cover (i : S512000.Idx) :
    ∃ t : Fin cfg0.N, (cfg0.win 8).flush t = true ∧ i ∈ ((cfg0.win 8).blk t).view.set := by
  have hi : (i 0).val < 512000 := (i 0).isLt
  refine ⟨⟨(i 0).val / 51200, by show (i 0).val / 51200 < grid0.N; rw [N_0]; omega⟩, flush0_8 _, ?_⟩
  rw [trace_mem_block]
  obtain ⟨e0, e1, e2, e3, e4, e5, e6, e7, e8, e9⟩ := block_of_point ⟨(i 0).val / 51200, by show (i 0).val / 51200 < grid0.N; rw [N_0]; omega⟩
  intro a
  match a with
  | ⟨0, _⟩ =>
    show win0_8.index _ (0 : Fin 1) * 51200 ≤ (i 0).val ∧ (i 0).val < win0_8.index _ (0 : Fin 1) * 51200 + 51200
    rw [e8]
    show (i 0).val / 51200 * 51200 ≤ (i 0).val ∧ (i 0).val < (i 0).val / 51200 * 51200 + 51200
    omega

/-- The trace array after the run. -/
theorem trace_final (c : Dev nD) :
    (dats m 0 c).arrAt 8 cfg0.N = traceArr (V m c main_v7) (V m c main_v8) (V m c main_v9) :=
  (dats m 0 c).arrAt_eq_of_cover 8 _ (fun t _ => trace_flushed m c t) trace_cover

/-! ## The current output (window 9) -/

/-- What point `t` writes back to the current array is block `t` of `currentArr` of the arrays the region found. -/
theorem current_flushed (c : Dev nD) (t : Fin cfg0.N) :
    (dats m 0 c).flushed 9 t
      = ((cfg0.win 9).blk t).view.read (Elt Ideal)
          (currentArr (V m c main_v5) (V m c main_v6) (V m c main_arg7) (V m c main_v4) (V m c main_arg10)) := by
  show (cfg0.win 9).cut (grid0.coords t) ((dats m 0 c).after 9 t) = _
  rw [after0_9]
  unfold out0_9
  rw [View.canon_unit_zero origin1]
  simp only [View.ld_unit_zero (S := S51200) origin1, View.ld_unit_zero (S := S1) origin1]
  obtain ⟨e0, e1, e2, e3, e4, e5, e6, e7, e8, e9⟩ := block_of_point t
  funext j
  refine (current_entry (iblk m c 0 t) (iblk m c 1 t) (iblk m c 5 t) (iblk m c 6 t) (iblk m c 7 t) j).trans ?_
  have h0 : ((cfg0.win 0).blk t).view.emb j = ((cfg0.win 9).blk t).view.emb j := by
    funext a; apply Fin.ext
    match a with
    | ⟨0, _⟩ => show win0_0.index t (0 : Fin 1) * 51200 + 1 * (j 0).val = win0_9.index t (0 : Fin 1) * 51200 + 1 * (j 0).val; omega
  have h1 : ((cfg0.win 1).blk t).view.emb j = ((cfg0.win 9).blk t).view.emb j := by
    funext a; apply Fin.ext
    match a with
    | ⟨0, _⟩ => show win0_1.index t (0 : Fin 1) * 51200 + 1 * (j 0).val = win0_9.index t (0 : Fin 1) * 51200 + 1 * (j 0).val; omega
  have h5 : ((cfg0.win 5).blk t).view.emb (ix1 (0 : Fin 1)) = ix1 (0 : Fin 1) := by
    funext a; apply Fin.ext
    match a with
    | ⟨0, _⟩ => show win0_5.index t (0 : Fin 1) * 1 + 1 * 0 = 0; omega
  have h6 : ((cfg0.win 6).blk t).view.emb (ix1 (0 : Fin 1)) = ix1 (0 : Fin 1) := by
    funext a; apply Fin.ext
    match a with
    | ⟨0, _⟩ => show win0_6.index t (0 : Fin 1) * 1 + 1 * 0 = 0; omega
  have h7 : ((cfg0.win 7).blk t).view.emb (ix1 (0 : Fin 1)) = ix1 (0 : Fin 1) := by
    funext a; apply Fin.ext
    match a with
    | ⟨0, _⟩ => show win0_7.index t (0 : Fin 1) * 1 + 1 * 0 = 0; omega
  show relaxed (V m c main_v5 (((cfg0.win 0).blk t).view.emb j)) (V m c main_v6 (((cfg0.win 1).blk t).view.emb j))
        (V m c main_arg7 (((cfg0.win 5).blk t).view.emb (ix1 (0 : Fin 1))))
      * V m c main_v4 (((cfg0.win 6).blk t).view.emb (ix1 (0 : Fin 1)))
      + V m c main_arg10 (((cfg0.win 7).blk t).view.emb (ix1 (0 : Fin 1)))
    = relaxed (V m c main_v5 (((cfg0.win 9).blk t).view.emb j)) (V m c main_v6 (((cfg0.win 9).blk t).view.emb j))
        (V m c main_arg7 (ix1 (0 : Fin 1))) * V m c main_v4 (ix1 (0 : Fin 1)) + V m c main_arg10 (ix1 (0 : Fin 1))
  rw [h0, h1, h5, h6, h7]

/-- An entry is in point `t`'s block of the current array iff it lies in the block's range. -/
theorem current_mem_block (t : Fin cfg0.N) (i : S512000.Idx) :
    i ∈ ((cfg0.win 9).blk t).view.set ↔ ∀ a : Fin 1, win0_9.index t a * S51200.size a ≤ (i a).val
      ∧ (i a).val < win0_9.index t a * S51200.size a + S51200.size a := by
  show i ∈ ((View.whole main_v10_1).slice (win0_9.rect t)).set ↔ _
  rw [View.set_slice_whole, Rect.mem_set_unit]
  exact Iff.rfl

/-- Every entry of the current array is in the block of point `i / 51200`. -/
theorem current_cover (i : S512000.Idx) :
    ∃ t : Fin cfg0.N, (cfg0.win 9).flush t = true ∧ i ∈ ((cfg0.win 9).blk t).view.set := by
  have hi : (i 0).val < 512000 := (i 0).isLt
  refine ⟨⟨(i 0).val / 51200, by show (i 0).val / 51200 < grid0.N; rw [N_0]; omega⟩, flush0_9 _, ?_⟩
  rw [current_mem_block]
  obtain ⟨e0, e1, e2, e3, e4, e5, e6, e7, e8, e9⟩ := block_of_point ⟨(i 0).val / 51200, by show (i 0).val / 51200 < grid0.N; rw [N_0]; omega⟩
  intro a
  match a with
  | ⟨0, _⟩ =>
    show win0_9.index _ (0 : Fin 1) * 51200 ≤ (i 0).val ∧ (i 0).val < win0_9.index _ (0 : Fin 1) * 51200 + 51200
    rw [e9]
    show (i 0).val / 51200 * 51200 ≤ (i 0).val ∧ (i 0).val < (i 0).val / 51200 * 51200 + 51200
    omega

/-- The current array after the run. -/
theorem current_final (c : Dev nD) :
    (dats m 0 c).arrAt 9 cfg0.N
      = currentArr (V m c main_v5) (V m c main_v6) (V m c main_arg7) (V m c main_v4) (V m c main_arg10) :=
  (dats m 0 c).arrAt_eq_of_cover 9 _ (fun t _ => current_flushed m c t) current_cover

end Cert.KernelIdeal.Blocks

end
-- ==== Proof.KernelFound.lean ====
/-
  What the region finds in its windows' arrays: the host operations of the program that come before the call.

  Each of the five neuron arrays (500000 entries) is padded at the end with 12000 entries of the padding value, to ten
  blocks of 51200: `padded x`. Below entry 500000 a padded array IS the array (`padded_apply`); the padding value is
  never looked at by what follows. The scale window holds the one-entry ratio `sig / sqrt_coeff`. The two index rows of
  the edge table are its rows 0 (the targets) and 1 (the sources), each as a flat array of ten million words. The edge
  weights and the one-entry rate and shift are the arguments themselves.
-/
import proofs.«405485_j28930899706245_3_alg».proof.Proof.Gen.KernelIdeal.Frame
import Idealize.ShloMosaic.Lib.StableHlo.Run
import Idealize.ShloMosaic.Lib.KernelVsHost

set_option maxRecDepth 16384

noncomputable section

namespace Cert.KernelIdeal.Found

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- A neuron array padded at the end to the ten-block length. -/
def padded (x : S500000.Idx → Elt Ideal .f32) : S512000.Idx → Elt Ideal .f32 :=
  pad S512000 ![0] ![12000] ![0] x (sitofp (F := Ideal) .f32 (constantI S_ 32 0#32))
    Facts₀.pads_S500000_S512000_0120000 Facts₀.h_S_

/-- Below the array's length the padded array is the array. -/
theorem padded_apply (x : S500000.Idx → Elt Ideal .f32) (j : S512000.Idx) (k : S500000.Idx) (h : (j 0).val = (k 0).val) :
    padded x j = x k :=
  pad_apply_of_inside _ _ _ x _ Facts₀.pads_S500000_S512000_0120000 Facts₀.h_S_ j k (fun a => match a with
    | ⟨0, _⟩ => by show (j 0).val = 0 + (k 0).val * (0 + 1); omega)

/-- Row 0 of the edge table, flat: the target neuron of each edge. -/
def postOf (edges : S2x10000000.Idx → BitVec 32) : S10000000.Idx → BitVec 32 :=
  shapeCast S10000000 (extractStridedSlice S1x10000000 ![0, 0] edges Facts₀.slices_S2x10000000_S1x10000000_0_0)
    Facts₀.shapeCasts_S1x10000000_S10000000

/-- Row 1 of the edge table, flat: the source neuron of each edge. -/
def preOf (edges : S2x10000000.Idx → BitVec 32) : S10000000.Idx → BitVec 32 :=
  shapeCast S10000000 (extractStridedSlice S1x10000000 ![1, 0] edges Facts₀.slices_S2x10000000_S1x10000000_1_0)
    Facts₀.shapeCasts_S1x10000000_S10000000

/-- The background-current window's array. -/
theorem found_iback (c : Dev nD) :
    (V m c main_v5 : S512000.Idx → Elt Ideal .f32) = padded (m ((c : Thread nD τ).loc main_arg2)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The noise window's array. -/
theorem found_noise (c : Dev nD) :
    (V m c main_v6 : S512000.Idx → Elt Ideal .f32) = padded (m ((c : Thread nD τ).loc main_arg6)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The spike window's array. -/
theorem found_spike (c : Dev nD) :
    (V m c main_v7 : S512000.Idx → Elt Ideal .f32) = padded (m ((c : Thread nD τ).loc main_arg3)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The fast-trace window's array. -/
theorem found_fast (c : Dev nD) :
    (V m c main_v8 : S512000.Idx → Elt Ideal .f32) = padded (m ((c : Thread nD τ).loc main_arg4)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The slow-trace window's array. -/
theorem found_slow (c : Dev nD) :
    (V m c main_v9 : S512000.Idx → Elt Ideal .f32) = padded (m ((c : Thread nD τ).loc main_arg5)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The scale window's array: the ratio of the two one-entry arguments. -/
theorem found_scale (c : Dev nD) :
    (V m c main_v4 : S1.Idx → Elt Ideal .f32)
      = Host.divf (F := Ideal) (s := S1) (φ := .f32) (m ((c : Thread nD τ).loc main_arg9)) (m ((c : Thread nD τ).loc main_arg8)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results

/-- The targets, as the lines after the region find them. -/
theorem found_post (c : Dev nD) :
    (V m c main_v1 : S10000000.Idx → BitVec 32) = postOf (m ((c : Thread nD τ).loc main_arg1)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

/-- The sources, as the lines after the region find them. -/
theorem found_pre (c : Dev nD) :
    (V m c main_v3 : S10000000.Idx → BitVec 32) = preOf (m ((c : Thread nD τ).loc main_arg1)) := by
  dsimp only [V, V0]
  simp only [hostOps0, hostOps0_1, hostOps0_2, hostOps0_3, hostOps0_4, hostOps0_5, hostOps0_6, hostOps0_7, hostOps0_8, hostOps0_9,
    List.flatten_cons, List.flatten_nil, List.append_nil, List.cons_append, List.nil_append]
  after_results
  rfl

end Cert.KernelIdeal.Found

end
-- ==== Proof.KernelTail.lean ====
/-
  After the region: the program's result from the region's two arrays.

  The lines after the call gather the trace array at the source index of every edge, multiply by the edge's weight,
  add each product into its target neuron's entry of a zero array (a scatter-add over ten million edges), and add the
  first 500000 entries of the current array. `combine` is that as one function of the weights, the targets, the
  sources and the two arrays. Read over the memory the region leaves — its two output arrays at what the ten blocks
  wrote, everything else as the region found it — it is the program's result (`result`), a function of the arguments.
-/
import proofs.«405485_j28930899706245_3_alg».proof.Proof.KernelBlocks
import proofs.«405485_j28930899706245_3_alg».proof.Proof.KernelFound

set_option maxRecDepth 16384

noncomputable section

namespace Cert.KernelIdeal.Tail

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Blocks Cert.KernelIdeal.Found

variable (m : (ℓ : Loc nD τ sig) → Buf (Elt Ideal) ℓ)

/-- The lines after the region as one function: gather the trace at the sources, weigh, add into the targets, add the
    current. -/
def combine (w : FVec Ideal S10000000 .f32) (post pre : IVec S10000000 32) (trace cur : FVec Ideal S512000 .f32) :
    FVec Ideal S500000 .f32 :=
  addf (Host.scatterAdd scatter_S500000_S10000000x1_S10000000_n_0_0_1
      (broadcastInDim S500000 ![] Facts₀.bcast_S_S500000 (constant (F := Ideal) S_ .f32 0x00000000#32))
      (broadcastInDim S10000000x1 ![0] Facts₀.bcast_S10000000_S10000000x1_0 post)
      (mulf w (Host.gather gather_S512000_S10000000x1_S10000000_n_0_n_n_0_1_1 trace
        (broadcastInDim S10000000x1 ![0] Facts₀.bcast_S10000000_S10000000x1_0 pre))))
    (extractStridedSlice S500000 ![0] cur Facts₀.slices_S512000_S500000_0)

/-- The result buffer after the lines that follow the region, over any contents of the buffers they read. -/
theorem after_tail (W : Valuation τ sig (Elt Ideal)) :
    StableHlo.after ([hostOps1, hostOps1_1] : List (List (HloOp τ sig (Elt Ideal)))).flatten W (Proc.devRef .tc main_v17)
      = combine (W (Proc.devRef .tc main_arg0)) (W (Proc.devRef .tc main_v1)) (W (Proc.devRef .tc main_v3))
          (W (Proc.devRef .tc main_v10_0)) (W (Proc.devRef .tc main_v10_1)) := by
  simp only [hostOps1, hostOps1_1, List.flatten_cons, List.flatten_nil, List.append_nil, List.cons_append, List.nil_append]
  after_results
  rfl

/-- The program's result as a function of its arguments. -/
def result (c : Dev nD) : FVec Ideal S500000 .f32 :=
  combine (m ((c : Thread nD τ).loc main_arg0)) (postOf (m ((c : Thread nD τ).loc main_arg1))) (preOf (m ((c : Thread nD τ).loc main_arg1)))
    (traceArr (padded (m ((c : Thread nD τ).loc main_arg3))) (padded (m ((c : Thread nD τ).loc main_arg4))) (padded (m ((c : Thread nD τ).loc main_arg5))))
    (currentArr (padded (m ((c : Thread nD τ).loc main_arg2))) (padded (m ((c : Thread nD τ).loc main_arg6))) (m ((c : Thread nD τ).loc main_arg7))
      (Host.divf (F := Ideal) (s := S1) (φ := .f32) (m ((c : Thread nD τ).loc main_arg9)) (m ((c : Thread nD τ).loc main_arg8))) (m ((c : Thread nD τ).loc main_arg10)))

/-- What the result buffer holds after the lines that follow the region. -/
theorem result_eq (c : Dev nD) :
    Pipeline.afterTail₀ cfgs (dats m) 0 (V0 m) [hostOps1, hostOps1_1] c main_v17 = result m c := by
  unfold Pipeline.afterTail₀
  rw [after_tail]
  have hw : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have hpost : Pipeline.withArrays (cfgs 0).spec c (V0 m c) (fun w => (dats m 0 c).arrAt w (cfgs 0).N) (Proc.devRef .tc main_v1)
      = postOf (m ((c : Thread nD τ).loc main_arg1)) :=
    (Pipeline.withArrays_of_ne _ c (V0 m c) _ main_v1 (by exact (by decide : ∀ w, Pipeline.arrRef spec0 w ≠ main_v1))).trans
      (found_post m c)
  have hpre : Pipeline.withArrays (cfgs 0).spec c (V0 m c) (fun w => (dats m 0 c).arrAt w (cfgs 0).N) (Proc.devRef .tc main_v3)
      = preOf (m ((c : Thread nD τ).loc main_arg1)) :=
    (Pipeline.withArrays_of_ne _ c (V0 m c) _ main_v3 (by exact (by decide : ∀ w, Pipeline.arrRef spec0 w ≠ main_v3))).trans
      (found_pre m c)
  have htrace : Pipeline.withArrays (cfgs 0).spec c (V0 m c) (fun w => (dats m 0 c).arrAt w (cfgs 0).N) (Proc.devRef .tc main_v10_0)
      = traceArr (padded (m ((c : Thread nD τ).loc main_arg3))) (padded (m ((c : Thread nD τ).loc main_arg4)))
          (padded (m ((c : Thread nD τ).loc main_arg5))) :=
    (Pipeline.withArrays_arr spec0 launch0.win.arr_inj c _ _ 8).trans
      ((trace_final m c).trans (by rw [found_spike m c, found_fast m c, found_slow m c]))
  have hcur : Pipeline.withArrays (cfgs 0).spec c (V0 m c) (fun w => (dats m 0 c).arrAt w (cfgs 0).N) (Proc.devRef .tc main_v10_1)
      = currentArr (padded (m ((c : Thread nD τ).loc main_arg2))) (padded (m ((c : Thread nD τ).loc main_arg6)))
          (m ((c : Thread nD τ).loc main_arg7))
          (Host.divf (F := Ideal) (s := S1) (φ := .f32) (m ((c : Thread nD τ).loc main_arg9)) (m ((c : Thread nD τ).loc main_arg8)))
          (m ((c : Thread nD τ).loc main_arg10)) :=
    (Pipeline.withArrays_arr spec0 launch0.win.arr_inj c _ _ 9).trans
      ((current_final m c).trans (by rw [found_iback m c, found_noise m c, found_scale m c, V_main_arg7 m c, V_main_arg10 m c]))
  rw [hw, hpost, hpre, htrace, hcur]
  rfl

/-- Every weakly fair execution of the program ends with the result buffer at `result` and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_v17 (Pipeline.mem_restRefs_of main_v17 (by decide) (by decide))).trans (result_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      ((h c).1 5).trans (((dats m 0 c).arrAt_in 5 rfl _).trans ((A_eq m c 5).trans (V_main_arg7 m c))),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      ((h c).1 7).trans (((dats m 0 c).arrAt_in 7 rfl _).trans ((A_eq m c 7).trans (V_main_arg10 m c)))⟩) (run_main m ρ)

end Cert.KernelIdeal.Tail

end
-- ==== Proof.Domain.lean ====
/-
  What the precondition says beyond finiteness. It is a conjunction of `all`-reductions; its last three conjuncts are
    the divisor `sqrt_coeff` is not zero (the reference divides by it);
    every source index is at least 0;
    every source index is below 500000 (the length of the trace array the reference indexes with it).
  Each is read back from "the reduction by `and` is 1": every compared entry is 1, and a comparison that is 1 holds of
  the words (signed, for the indices) or of the extended reals (for the divisor).
-/
import proofs.«405485_j28930899706245_3_alg».proof.Defs
import proofs.«405485_j28930899706245_3_alg».proof.Proof.Gen.KernelIdeal
import proofs.«405485_j28930899706245_3_alg».proof.Proof.Gen.Pre_finite_inputs
import proofs.«405485_j28930899706245_3_alg».proof.Proof.KernelFound
import Idealize.ShloMosaic.Lib.ReduceAll
import Idealize.ShloMosaic.Lib.ValueIdx
import Idealize.ShloMosaic.Lib.StableHlo.Predicate
import Idealize.ShloMosaic.PureOps.Ideal.Laws

set_option maxRecDepth 16384

noncomputable section

namespace Cert.KernelIdeal.Domain

open Idealize.ShloMosaic Idealize.ShloMosaic.TcCoe Idealize.ShloMosaic.ValueIdx Idealize.SL.Sem
open Cert.KernelIdeal Cert.KernelIdeal.Found

variable (m : (ℓ : Loc nD τ sig) → Buf (Elt Ideal) ℓ)

/-- The scalar shape has one index. -/
instance : Subsingleton Cert.Pre_finite_inputs.S_.Idx := ⟨fun a b => funext fun d => d.elim0⟩

/-- The divisor is not zero, and every source index lies in `[0, 500000)`. -/
theorem of_pre (h : Cert.Pre_KernelIdeal m) (c : Dev nD) :
    m ((c : Thread nD τ).loc main_arg8) (ix1 (0 : Fin 1)) ≠ (0 : EReal)
    ∧ ∀ i : S10000000.Idx, 0 ≤ (preOf (m ((c : Thread nD τ).loc main_arg1)) i).toInt
        ∧ (preOf (m ((c : Thread nD τ).loc main_arg1)) i).toInt < 500000 := by
  have e := congrFun (h c) ix0
  unfold Cert.Pre_finite_inputs.fn Cert.Pre_finite_inputs.fn_part1 Cert.Pre_finite_inputs.fn_part2
    Cert.Pre_finite_inputs.fn_part3 at e
  dsimp only at e
  simp only [andi] at e
  rw [IntOp.andi_eq_one, IntOp.andi_eq_one, IntOp.andi_eq_one] at e
  obtain ⟨⟨⟨-, hdiv⟩, hlow⟩, hhigh⟩ := e
  refine ⟨?_, fun i => ⟨?_, ?_⟩⟩
  · have e1 := Host.reduce_andi_all _ _ _ _ ix0 hdiv (ix1 (0 : Fin 1))
    have e2 : BitVec.ofBool (decide ((m ((c : Thread nD τ).loc main_arg8) (ix1 (0 : Fin 1)) : EReal)
        ≠ Ideal.ofBits .f32 0x00000000#32)) = 1#1 := e1
    have e3 := of_decide_eq_true ((StableHlo.Predicate.ofBool_eq_one_iff _).1 e2)
    rw [Ideal.ofBits_zero_f32] at e3
    exact e3
  · have e1 := Host.reduce_andi_all _ _ _ _ ix0 hlow i
    have e2 : IntOp.cmpi .sge (preOf (m ((c : Thread nD τ).loc main_arg1)) i) 0#32 = 1#1 := e1
    rw [IntOp.cmpi_sge] at e2
    have z : (0#32 : BitVec 32).toInt = 0 := by decide
    omega
  · have e1 := Host.reduce_andi_all _ _ _ _ ix0 hhigh i
    have e2 : IntOp.cmpi .slt (preOf (m ((c : Thread nD τ).loc main_arg1)) i) 500000#32 = 1#1 := e1
    rw [IntOp.cmpi_slt] at e2
    have z : (500000#32 : BitVec 32).toInt = 500000 := by decide
    omega

end Cert.KernelIdeal.Domain

end
-- ==== Proof.RefEntry.lean ====
/-
  The reference, one entry at a time, on the extended reals.

  Entry `i` of its trace array is `traceStep` of the spike, fast and slow entries; entry `i` of its current array is the
  relaxed background current divided by the one-entry divisor, scaled and shifted (`drive`). Its gather reads the trace at
  the source index of each edge after jnp's index normalisation: a negative index has the array's length added. On a
  non-negative index the normalisation does nothing.
-/
import proofs.«405485_j28930899706245_3_alg».proof.Proof.Gen.ReferenceIdeal.Read
import proofs.«405485_j28930899706245_3_alg».proof.Proof.NeuronStep
import Idealize.ShloMosaic.Lib.ValueIdx
import Idealize.ShloMosaic.Lib.Affine

noncomputable section

namespace Cert.ReferenceIdeal.Entry

open Idealize.ShloMosaic Idealize.ShloMosaic.ValueIdx
open Cert.ReferenceIdeal Cert.ReferenceIdeal.Read Cert.NeuronStep

/-- Entry `i` of the reference's trace array. -/
theorem trace_entry (spike s r : S500000.Idx → Elt Ideal .f32) (i : S500000.Idx) :
    val_main_v22 (F := Ideal) spike s r i = traceStep (spike i) (s i) (r i) := rfl

/-- A one-entry array has one index. -/
theorem one_entry (k : S1.Idx) : k = ix1 (0 : Fin 1) := by
  funext a
  match a with
  | ⟨0, _⟩ =>
    have h : (k 0).val < 1 := (k 0).isLt
    exact Fin.ext (by show (k 0).val = 0; omega)

/-- Entry `i` of the reference's current array. -/
theorem current_entry (iback noise : S500000.Idx → Elt Ideal .f32) (dt c sig mu : S1.Idx → Elt Ideal .f32) (i : S500000.Idx) :
    val_main_v9 (F := Ideal) iback noise dt c sig mu i
      = drive (relaxed (iback i) (noise i) (dt (ix1 (0 : Fin 1)))) (c (ix1 (0 : Fin 1))) (sig (ix1 (0 : Fin 1)))
          (mu (ix1 (0 : Fin 1))) := by
  rw [val_main_v9_apply, val_main_v7_apply, val_main_v5_apply, val_main_v3_apply, val_main_v2_apply, val_main_v0_apply,
    val_main_v1_apply, val_main_v4_apply, val_main_v6_apply, val_main_v8_apply,
    one_entry (idx_main_v1 i), one_entry (idx_main_v4 i), one_entry (idx_main_v6 i), one_entry (idx_main_v8 i)]
  rfl

/-- The normalised source index of an edge whose source index is not negative is that index. -/
theorem source_entry (edges : S2x10000000.Idx → BitVec 32) (i : S10000000.Idx)
    (h : 0 ≤ (val_main_v26 (F := Ideal) edges i).toInt) :
    val_main_v31 (F := Ideal) edges i = val_main_v26 (F := Ideal) edges i := by
  rw [val_main_v31_apply, val_main_v28_apply]
  have hz : IntOp.cmpi .slt (val_main_v26 (F := Ideal) edges i) (val_main_v27 (F := Ideal) i) = 0#1 := by
    apply eq_zero_of_ne_one
    intro h1
    rw [IntOp.cmpi_slt] at h1
    have h0 : (val_main_v27 (F := Ideal) i).toInt = 0 := rfl
    omega
  rw [hz, select_zero]

end Cert.ReferenceIdeal.Entry

end
-- ==== Proof.Bridge.lean ====
/-
  The two programs compute one function of the arguments, where the divisor is not zero and every source index is in
  range.

  The gathered trace. The kernel gathers from the padded 512000-entry trace array at the raw source index `q` of an edge;
  the host's gather clamps into `[0, 511999]`, which leaves `q < 500000` alone, and entry `q` of the padded array is
  `traceStep` of the unpadded inputs at `q`. The reference gathers from its 500000-entry trace array at the normalised
  index (length added when negative: unchanged for `q ≥ 0`), clamped into `[0, 499999]` (unchanged again), and its entry
  `q` is the same `traceStep`. Out of range the two differ — `−1` reads entry 0 in the kernel and the last entry in the
  reference, an index past 500000 reads the padding in the kernel — which is why the range is assumed.

  The current. The kernel's array, cut back to 500000 entries, holds the relaxed current times the ratio `sig / c` plus
  the shift; the reference's holds the relaxed current divided by `c`, times `sig`, plus the shift: equal off `c = 0`.

  The weights, the targets and the scatter-add are the same operations of the same operands on both sides.
-/
import proofs.«405485_j28930899706245_3_alg».proof.Proof.KernelTail
import proofs.«405485_j28930899706245_3_alg».proof.Proof.RefEntry
import Idealize.ShloMosaic.Lib.StableHlo.Predicate

set_option maxRecDepth 16384

noncomputable section

namespace Cert.Bridge

open Idealize.ShloMosaic Idealize.ShloMosaic.ValueIdx Idealize.ShloMosaic.Pipeline Idealize.ShloMosaic.StableHlo.Predicate
open Cert.NeuronStep Cert.KernelIdeal.Found Cert.KernelIdeal.Blocks Cert.KernelIdeal.Tail
open Cert.ReferenceIdeal.Read Cert.ReferenceIdeal.Entry

/-- The reference's flat row of sources is the kernel's. -/
theorem sources_eq (edges : Cert.KernelIdeal.S2x10000000.Idx → BitVec 32) :
    val_main_v26 (F := Ideal) edges = preOf edges := rfl

/-- An index clamped below the length is itself. -/
theorem ofFin_min {N : Nat} (x q : Nat) (hq : q < N) (hx : x = q) (pf : min x (N - 1) < N) :
    (Shape.Idx.ofFin (⟨min x (N - 1), pf⟩ : Fin N)) = Shape.Idx.ofFin ⟨q, hq⟩ := by
  subst hx
  congr 1
  apply Fin.ext
  show min x (N - 1) = x
  omega

/-- The gathered trace of the kernel at edge `p` whose source index is `q`. -/
theorem kernel_gathered (edges : Cert.KernelIdeal.S2x10000000.Idx → BitVec 32)
    (spike s r : Cert.KernelIdeal.S500000.Idx → Elt Ideal .f32) (p : Fin 10000000) (q : Fin 500000)
    (hq : (preOf edges (Shape.Idx.ofFin p)).toInt = (q.val : Int)) :
    Host.gather Cert.KernelIdeal.gather_S512000_S10000000x1_S10000000_n_0_n_n_0_1_1
        (traceArr (padded spike) (padded s) (padded r))
        (broadcastInDim Cert.KernelIdeal.S10000000x1 ![0] Cert.KernelIdeal.Facts₀.bcast_S10000000_S10000000x1_0 (preOf edges))
        (Shape.Idx.ofFin p)
      = traceStep (spike (Shape.Idx.ofFin q)) (s (Shape.Idx.ofFin q)) (r (Shape.Idx.ofFin q)) := by
  refine (gather_take (N := 512000) (n := 10000000) Cert.KernelIdeal.gather_S512000_S10000000x1_S10000000_n_0_n_n_0_1_1
    rfl rfl rfl rfl _ _ p (by decide)).trans ?_
  have hX : (broadcastInDim Cert.KernelIdeal.S10000000x1 ![0] Cert.KernelIdeal.Facts₀.bcast_S10000000_S10000000x1_0
      (preOf edges) (ixP p)).toInt.toNat = q.val :=
    (congrArg (fun w : BitVec 32 => w.toInt.toNat)
      (bcast_col1 (n := 10000000) Cert.KernelIdeal.Facts₀.bcast_S10000000_S10000000x1_0 (preOf edges) p)).trans
      (by show (preOf edges (Shape.Idx.ofFin p)).toInt.toNat = q.val; rw [hq, Int.toNat_natCast])
  have hlt := q.isLt
  dsimp only [traceArr]
  rw [padded_apply spike _ (Shape.Idx.ofFin q) (by show min _ (512000 - 1) = q.val; rw [hX]; omega),
    padded_apply s _ (Shape.Idx.ofFin q) (by show min _ (512000 - 1) = q.val; rw [hX]; omega),
    padded_apply r _ (Shape.Idx.ofFin q) (by show min _ (512000 - 1) = q.val; rw [hX]; omega)]

/-- The gathered trace of the reference at edge `p` whose source index is `q`. -/
theorem reference_gathered (edges : Cert.KernelIdeal.S2x10000000.Idx → BitVec 32)
    (spike s r : Cert.KernelIdeal.S500000.Idx → Elt Ideal .f32) (p : Fin 10000000) (q : Fin 500000)
    (hq : (preOf edges (Shape.Idx.ofFin p)).toInt = (q.val : Int)) :
    val_main_v33 (F := Ideal) edges spike s r (Shape.Idx.ofFin p)
      = traceStep (spike (Shape.Idx.ofFin q)) (s (Shape.Idx.ofFin q)) (r (Shape.Idx.ofFin q)) := by
  unfold val_main_v33
  refine (gather_take (N := 500000) (n := 10000000) Cert.ReferenceIdeal.gather_S500000_S10000000x1_S10000000_n_0_n_n_0_1_1
    rfl rfl rfl rfl _ _ p (by decide)).trans ?_
  have hnorm : val_main_v32 (F := Ideal) edges (ixP p) = preOf edges (Shape.Idx.ofFin p) := by
    rw [val_main_v32_apply]
    have hi : idx_main_v32 (ixP p) = Shape.Idx.ofFin p := by
      funext a; match a with | ⟨0, _⟩ => exact Fin.ext rfl
    rw [hi, source_entry edges (Shape.Idx.ofFin p) (by rw [sources_eq, hq]; exact Int.natCast_nonneg _), sources_eq]
  have hY : (val_main_v32 (F := Ideal) edges (ixP p)).toInt.toNat = q.val := by
    rw [hnorm, hq, Int.toNat_natCast]
  rw [trace_entry, ofFin_min _ q.val q.isLt hY]

/-- The gathered traces agree, edge by edge. -/
theorem gathered_eq (edges : Cert.KernelIdeal.S2x10000000.Idx → BitVec 32)
    (spike s r : Cert.KernelIdeal.S500000.Idx → Elt Ideal .f32)
    (hdom : ∀ i : Cert.KernelIdeal.S10000000.Idx, 0 ≤ (preOf edges i).toInt ∧ (preOf edges i).toInt < 500000) :
    Host.gather Cert.KernelIdeal.gather_S512000_S10000000x1_S10000000_n_0_n_n_0_1_1
        (traceArr (padded spike) (padded s) (padded r))
        (broadcastInDim Cert.KernelIdeal.S10000000x1 ![0] Cert.KernelIdeal.Facts₀.bcast_S10000000_S10000000x1_0 (preOf edges))
      = val_main_v33 (F := Ideal) edges spike s r := by
  funext j
  obtain ⟨p, rfl⟩ : ∃ p : Fin 10000000, j = Shape.Idx.ofFin p := ⟨j 0, Shape.Idx.eq_ofFin j⟩
  obtain ⟨h0, h1⟩ := hdom (Shape.Idx.ofFin p)
  have hq : (preOf edges (Shape.Idx.ofFin p)).toInt
      = ((⟨(preOf edges (Shape.Idx.ofFin p)).toInt.toNat, by omega⟩ : Fin 500000).val : Int) := by
    show _ = ((preOf edges (Shape.Idx.ofFin p)).toInt.toNat : Int)
    rw [Int.toNat_of_nonneg h0]
  rw [kernel_gathered edges spike s r p _ hq, reference_gathered edges spike s r p _ hq]

/-- The currents agree, neuron by neuron, off a zero divisor. -/
theorem current_eq (iback noise : Cert.KernelIdeal.S500000.Idx → Elt Ideal .f32)
    (dt c sig mu : Cert.KernelIdeal.S1.Idx → Elt Ideal .f32) (hc : c (ix1 (0 : Fin 1)) ≠ (0 : EReal)) :
    extractStridedSlice Cert.KernelIdeal.S500000 ![0]
        (currentArr (padded iback) (padded noise) dt (Host.divf (F := Ideal) (s := Cert.KernelIdeal.S1) (φ := .f32) sig c) mu)
        Cert.KernelIdeal.Facts₀.slices_S512000_S500000_0
      = val_main_v9 (F := Ideal) iback noise dt c sig mu := by
  funext i
  have hi : (i 0).val < 500000 := (i 0).isLt
  have hk : ((Shape.Idx.ofFin (⟨(i 0).val, by omega⟩ : Fin 512000) : (⟨1, ![512000]⟩ : Shape).Idx) 0).val = (i 0).val := rfl
  rw [extractStridedSlice_apply ![0] _ Cert.KernelIdeal.Facts₀.slices_S512000_S500000_0 i
    (Shape.Idx.ofFin (⟨(i 0).val, by omega⟩ : Fin 512000)) (fun a => match a with
      | ⟨0, _⟩ => by show (i 0).val = 0 + (i 0).val; omega)]
  rw [current_entry]
  unfold currentArr
  rw [padded_apply iback _ i hk, padded_apply noise _ i hk]
  exact scaled_eq_drive hc _ _ _

/-- The kernel's result is the reference's, as functions of the arguments. -/
theorem result_eq_reference (w : Cert.KernelIdeal.S10000000.Idx → Elt Ideal .f32)
    (edges : Cert.KernelIdeal.S2x10000000.Idx → BitVec 32)
    (iback spike s r noise : Cert.KernelIdeal.S500000.Idx → Elt Ideal .f32)
    (dt c sig mu : Cert.KernelIdeal.S1.Idx → Elt Ideal .f32) (hc : c (ix1 (0 : Fin 1)) ≠ (0 : EReal))
    (hdom : ∀ i : Cert.KernelIdeal.S10000000.Idx, 0 ≤ (preOf edges i).toInt ∧ (preOf edges i).toInt < 500000) :
    combine w (postOf edges) (preOf edges) (traceArr (padded spike) (padded s) (padded r))
        (currentArr (padded iback) (padded noise) dt (Host.divf (F := Ideal) (s := Cert.KernelIdeal.S1) (φ := .f32) sig c) mu)
      = val_main_v38 (F := Ideal) w edges iback spike s r noise dt c sig mu := by
  unfold combine
  rw [gathered_eq edges spike s r hdom, current_eq iback noise dt c sig mu hc]
  rfl

end Cert.Bridge

end
-- ==== Proof.lean ====
/-
  A network of 500000 neurons and ten million weighted edges, one time step. Per neuron: the background current relaxes
  toward the noise, `x = iback + dt·(noise − iback)`, and gives the effective current `x / c · sig + mu`; the
  dual-exponential synaptic trace steps, `s' = s + a·(−s + spike/2)`, `r' = r − b·r + h·s'`. Per edge: the source
  neuron's new trace `r'[pre]` times the edge's weight is added into the target neuron's entry. The result is that sum
  plus the effective current.

  The kernel computes the two per-neuron arrays in ten blocks of 51200 over arrays padded to 512000 entries, with the
  ratio `sig / c` computed once, and leaves the gather, the weighting and the scatter-add to the host, reading the padded
  trace array at the raw source indices and cutting the current back to 500000 entries. The reference does everything on
  the host over the 500000-entry arrays, with jnp's index normalisation in front of its gather.

  The two are the same function of the arguments on the extended reals where (i) the divisor `c` is not zero —
  `x·(sig·c⁻¹) = (x·c⁻¹)·sig` by commutativity and associativity of the product, which need no finiteness; at `c = 0`
  the reference itself divides by zero and the two differ — and (ii) every source index lies in `[0, 500000)`, the range
  of the array it indexes: there neither the normalisation nor either clamp moves it, and the padded array agrees with
  the unpadded one; outside, the reference indexes out of range and the two read different entries. Both conditions are
  conjuncts of the precondition. The weights, the targets and the scatter-add are literally the same on both sides, so
  the sum over edges is never opened.

  The frames of the two kernel programs are the generated ones; the reference's frame is its generated run with the
  result dropped; nothing was rewritten by the ideal pass, so `preserves` is trivial.
-/
import proofs.«405485_j28930899706245_3_alg».proof.Defs
import proofs.«405485_j28930899706245_3_alg».proof.Proof.Gen.Kernel
import proofs.«405485_j28930899706245_3_alg».proof.Proof.Gen.Kernel.Skeleton
import proofs.«405485_j28930899706245_3_alg».proof.Proof.Gen.Kernel.Launch
import proofs.«405485_j28930899706245_3_alg».proof.Proof.Gen.Kernel.Points
import proofs.«405485_j28930899706245_3_alg».proof.Proof.Gen.Kernel.Frame
import proofs.«405485_j28930899706245_3_alg».proof.Proof.Gen.KernelIdeal
import proofs.«405485_j28930899706245_3_alg».proof.Proof.Gen.KernelIdeal.Skeleton
import proofs.«405485_j28930899706245_3_alg».proof.Proof.Gen.KernelIdeal.Launch
import proofs.«405485_j28930899706245_3_alg».proof.Proof.Gen.KernelIdeal.Points
import proofs.«405485_j28930899706245_3_alg».proof.Proof.Gen.KernelIdeal.Frame
import proofs.«405485_j28930899706245_3_alg».proof.Proof.Gen.ReferenceIdeal
import proofs.«405485_j28930899706245_3_alg».proof.Proof.Gen.Pre_finite_inputs
import proofs.«405485_j28930899706245_3_alg».proof.Proof.Gen.ReferenceIdeal.Run
import proofs.«405485_j28930899706245_3_alg».proof.Proof.Gen.ReferenceIdeal.Read
import proofs.«405485_j28930899706245_3_alg».proof.Proof.KernelTail
import proofs.«405485_j28930899706245_3_alg».proof.Proof.Domain
import proofs.«405485_j28930899706245_3_alg».proof.Proof.Bridge
import Idealize.ShloMosaic.Adequacy
import Idealize.ShloMosaic.Init

noncomputable section

namespace Cert.Proof

open Idealize.ShloMosaic Idealize.SL.Sem

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end at one function of them: the kernel's run ends at
    `Tail.result`, the reference's at its composed term, and under the precondition's two domain conjuncts these are
    equal. -/
theorem algebraic : Cert.algebraic_KernelIdeal_ReferenceIdeal := by
  intro m ρ m' ρ' hpre hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨hc, hdom⟩ := Cert.KernelIdeal.Domain.of_pre m hpre c
  obtain ⟨a0, a1, a2, a3, a4, a5, a6, a7, a8, a9, a10⟩ := hagree c
  rw [Cert.ReferenceIdeal.Read.val_main_v38_eq, a0, a1, a2, a3, a4, a5, a6, a7, a8, a9, a10]
  exact (Cert.Bridge.result_eq_reference _ _ _ _ _ _ _ _ _ _ _ hc hdom).symm

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
